-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x256 : Shape := ⟨2, ![128, 256]⟩
abbrev S5x128 : Shape := ⟨2, ![5, 128]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  main_v18

def fn {F : FTy → Type} [FloatOps F] (main_arg0 : FVec F S100000x128 .f32) (main_arg1 : FVec F S50000x128 .f32) (main_arg2 : FVec F S128x256 .f32) (main_arg3 : FVec F S5x128 .f32) (main_arg4 : IVec S1000000 32) (main_arg5 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S5x128 .f32 := Host.absf main_arg3
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_v13 main_v16
-- ==== Kernel.lean ====
abbrev S100000x128 : Shape := ⟨2, ![100000, 128]⟩
abbrev S50000x128 : Shape := ⟨2, ![50000, 128]⟩
abbrev S128x256 : Shape := ⟨2, ![128, 256]⟩
abbrev S5x128 : Shape := ⟨2, ![5, 128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S128x128 : Shape := ⟨2, ![128, 128]⟩
abbrev S128x5 : Shape := ⟨2, ![128, 5]⟩
abbrev S1000000x5 : Shape := ⟨2, ![1000000, 5]⟩
abbrev S8000x128 : Shape := ⟨2, ![8000, 128]⟩
abbrev S8000x5 : Shape := ⟨2, ![8000, 5]⟩

abbrev nBuf : Space → Nat
  | .hbm => 30
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x256, .f32⟩
  | .hbm, ⟨3, _⟩ => ⟨S5x128, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x5, .f32⟩
  | .hbm, ⟨29, _⟩ => ⟨S1000000x5, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S128x5, .f32⟩
  | .local _ .vmem, ⟨7, _⟩ => ⟨S8000x5, .f32⟩
  | .local _ .vmem, ⟨8, _⟩ => ⟨S8000x5, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  transposes_S5x128_S128x5_1_0 : S5x128.Transposes [1, 0] S128x5
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S8000x5_S8000x5_0_0 : ∀ a, (![0, 0] : Fin 2 → Nat) a + S8000x5.size a ≤ S8000x5.size a
  h_S8000x5 : 0 < S8000x5.numel
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S8000x128_S128x128_S8000x128_1_0_0_1_n_n_wf : DotDims.WF S8000x128 S128x128 S8000x128 [1] [0] [0] [1] [] []
  dot_S8000x128_S128x5_S8000x5_1_0_0_1_n_n_wf : DotDims.WF S8000x128 S128x5 S8000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1000000x128.size a
  hwx0_1 : ∀ i : grid0.Coords, EltTy.bits .f32 = 32 ∨ (Rect.block (s := S1000000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x5.size a ≤ S128x5.size a
  hwx0_4 : ∀ i : grid0.Coords, EltTy.bits .f32 = 32 ∨ (Rect.block (s := S128x5) S128x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x5.size a ≤ S1000000x5.size a
  hwx0_5 : ∀ i : grid0.Coords, EltTy.bits .f32 = 32 ∨ (Rect.block (s := S1000000x5) S8000x5.size (cc0_transform_5 i) (hinb0_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x5_S8000x5_1_0_0_1_n_n : DotDims S8000x128 S128x5 S8000x5 where
  lhsContracting := [1]
  rhsContracting := [0]
  lhsNonContracting := [0]
  rhsNonContracting := [1]
  lhsBatch := []
  rhsBatch := []
  wf := dot_S8000x128_S128x5_S8000x5_1_0_0_1_n_n_wf

abbrev win0_0 : Pipeline.Window sig grid0 :=
  Pipeline.Window.ofSpec (Memref.whole main_v6) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S8000x5.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x256 : Shape := ⟨2, ![128, 256]⟩
abbrev S5x128 : Shape := ⟨2, ![5, 128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x128 : Shape := ⟨2, ![256, 128]⟩
abbrev S128x5 : Shape := ⟨2, ![128, 5]⟩
abbrev S1000000x5 : Shape := ⟨2, ![1000000, 5]⟩

abbrev nBuf : Space → Nat
  | .hbm => 32
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x256, .f32⟩
  | .hbm, ⟨3, _⟩ => ⟨S5x128, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S1000000x256, .f32⟩
  | .hbm, ⟨25, _⟩ => ⟨S256x128, .f32⟩
  | .hbm, ⟨26, _⟩ => ⟨S1000000x128, .f32⟩
  | .hbm, ⟨27, _⟩ => ⟨S_, .f32⟩
  | .hbm, ⟨28, _⟩ => ⟨S1000000x128, .f32⟩
  | .hbm, ⟨29, _⟩ => ⟨S1000000x128, .f32⟩
  | .hbm, ⟨30, _⟩ => ⟨S128x5, .f32⟩
  | .hbm, ⟨31, _⟩ => ⟨S1000000x5, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  transposes_S128x256_S256x128_1_0 : S128x256.Transposes [1, 0] S256x128
  bcast_S_S1000000x128 : S_.BroadcastsInDim S1000000x128 (![] : Fin 0 → Fin S1000000x128.rank)
  transposes_S5x128_S128x5_1_0 : S5x128.Transposes [1, 0] S128x5
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x5_S1000000x5_1_0_0_1_n_n_wf : DotDims.WF S1000000x128 S128x5 S1000000x5 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x5_S1000000x5_1_0_0_1_n_n : DotDims S1000000x128 S128x5 S1000000x5 where
  lhsContracting := [1]
  rhsContracting := [0]
  lhsNonContracting := [0]
  rhsNonContracting := [1]
  lhsBatch := []
  rhsBatch := []
  wf := dot_S1000000x128_S128x5_S1000000x5_1_0_0_1_n_n_wf

class Facts : Prop extends Facts₀ where

variable [Facts]
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Payload.lean ====
/-
  What the kernel body stores, read at one entry, over the extended reals.

  At a grid point the body holds a block of 8000 source rows x0 and of 8000 destination rows x1 (128 features each), the two
  128 by 128 weight blocks x2 and x3 (the transposed left and right halves of W1) and the 128 by 5 block x4 (the
  transposed W2). It stores the product of the rectified sum of the two products x0 x2 + x1 x3 with x4. The narrowing of
  the matrix units' operands changes no value over the extended reals, each product into a zero accumulator is the plain
  sum of products over the contracted coordinate, and the maximum with the zero splat is the positive part. So entry
  (p, q) of the stored block is the sum over k of the positive part of
  (sum over j of x0 (p, j) x2 (j, k)) + (sum over j of x1 (p, j) x3 (j, k)), times x4 (k, q).
-/
import proofs.«156160_j76605036692176_1_alg».proof.Proof.Gen.KernelIdeal.Skeleton
import proofs.«156160_j76605036692176_1_alg».proof.Proof.LibPlainMatmul
import Idealize.ShloMosaic.Lib.Pipeline.Value
import Idealize.ShloMosaic.Lib.ValueIdx
import Idealize.ShloMosaic.PureOps.Ideal.Laws

noncomputable section

namespace Cert.EdgeMlp.Kernel

open Cert.KernelIdeal Cert.KernelIdeal.Gen Idealize.ShloMosaic Idealize.ShloMosaic.ValueIdx

/-- The body's three products are plain [M, K] x [K, N] products. -/
theorem dot_hidden : dot_S8000x128_S128x128_S8000x128_1_0_0_1_n_n = DotDims.plain 8000 128 128 := rfl
theorem dot_score : dot_S8000x128_S128x5_S8000x5_1_0_0_1_n_n = DotDims.plain 8000 128 5 := rfl

/-- Entry (p, q) of the block the body stores. -/
theorem stored_apply (x0 x1 : Vec Ideal S8000x128 .f32) (x2 x3 : Vec Ideal S128x128 .f32) (x4 : Vec Ideal S128x5 .f32)
    (p : Fin 8000) (q : Fin 5) :
    k0_pay1 (F := Ideal) x0 x1 x2 x3 x4 (ix2 p q)
      = ∑ k : Fin 128, max (∑ j : Fin 128, x0 (ix2 p j) * x2 (ix2 j k) + ∑ j : Fin 128, x1 (ix2 p j) * x3 (ix2 j k)) 0
          * x4 (ix2 k q) := by
  unfold k0_pay1
  simp only [shapeCast_self, dot_hidden, dot_score]
  refine (Cert.PlainMatmul.apply (M := 8000) (K := 128) (N := 5) none _ _ p q).trans ?_
  refine Finset.sum_congr rfl fun k _ => ?_
  show max (FloatOps.matmul (DotDims.plain 8000 128 128) none _ _ _ (ix2 p k)
      + FloatOps.matmul (DotDims.plain 8000 128 128) none _ _ _ (ix2 p k)) (Ideal.ofBits .f32 0x00000000#32) * x4 (ix2 k q) = _
  rw [Cert.PlainMatmul.apply, Cert.PlainMatmul.apply, Ideal.ofBits_zero_f32]
  rfl

end Cert.EdgeMlp.Kernel

end
-- ==== Proof.Spec.lean ====
/-
  The score of every edge of a bipartite graph, as one function of the gathered endpoint features and the two weight
  matrices, over the extended reals.

  An edge e has a source row hu e and a destination row hv e, each of 128 features. The hidden layer has 128 units: unit k
  takes the inner product of the concatenated row (hu e, hv e), of 256 features, with row k of W1 (128 by 256), and keeps
  its positive part. The output layer has 5 units: unit c takes the inner product of the hidden row with row c of W2
  (5 by 128).

  The concatenated inner product is written here as the sum of two inner products of 128 terms, one against the left half
  of W1's row and one against the right half; `sum_halves` is the law that joins that form with the sum over all 256
  coordinates. It holds in every commutative additive monoid, so on the extended reals too, infinities included: nothing
  here needs the inputs finite.
-/
import Idealize.ShloMosaic.Lib.ValueIdx
import Idealize.ShloMosaic.PureOps.Ideal

noncomputable section

namespace Cert.EdgeMlp

open Idealize.ShloMosaic Idealize.ShloMosaic.ValueIdx

/-- Coordinate j of the left half of a row of 256. -/
abbrev lo (j : Fin 128) : Fin 256 := ⟨j.val, by omega⟩
/-- Coordinate j of the right half of a row of 256. -/
abbrev hi (j : Fin 128) : Fin 256 := ⟨128 + j.val, by omega⟩

/-- A sum over 256 coordinates is the sum over the left half plus the sum over the right half. -/
theorem sum_halves {M : Type*} [AddCommMonoid M] (f : Fin 256 → M) :
    ∑ k : Fin 256, f k = ∑ j : Fin 128, f (lo j) + ∑ j : Fin 128, f (hi j) :=
  Fin.sum_univ_add (a := 128) (b := 128) (fun k : Fin (128 + 128) => f k)

/-- Hidden unit k of edge e: the positive part of the inner product of (hu e, hv e) with row k of W1, the inner product
    split at the seam of the two halves. -/
def hidden (hu hv : (⟨2, ![1000000, 128]⟩ : Shape).Idx → EReal) (W1 : (⟨2, ![128, 256]⟩ : Shape).Idx → EReal)
    (e : Fin 1000000) (k : Fin 128) : EReal :=
  max (∑ j : Fin 128, hu (ix2 e j) * W1 (ix2 k (lo j)) + ∑ j : Fin 128, hv (ix2 e j) * W1 (ix2 k (hi j))) 0

/-- Score c of edge e: the inner product of the hidden row of e with row c of W2. -/
def score (hu hv : (⟨2, ![1000000, 128]⟩ : Shape).Idx → EReal) (W1 : (⟨2, ![128, 256]⟩ : Shape).Idx → EReal)
    (W2 : (⟨2, ![5, 128]⟩ : Shape).Idx → EReal) : (⟨2, ![1000000, 5]⟩ : Shape).Idx → EReal :=
  fun i => ∑ k : Fin 128, hidden hu hv W1 (i 0) k * W2 (ix2 (i 1) k)

end Cert.EdgeMlp

end
-- ==== Proof.HostPrefix.lean ====
/-
  What the kernel region finds in its five input arrays: the host operations before the region, read back.

  The source rows are the rows of the user table picked by the source indices (a negative index counted from the table's
  end first, as numpy does), and likewise the destination rows from the item table; the three weight blocks are the
  transposed left half of W1, the transposed right half of W1, and the transposed W2. The gathers stay whole terms here:
  the reference picks its rows by the same operation on the same indices, so nothing below opens them. The weight blocks are
  read at an entry: entry (j, k) of the first is W1 (k, j), of the second W1 (k, 128 + j), and entry (k, c) of the third is
  W2 (c, k).
-/
import proofs.«156160_j76605036692176_1_alg».proof.Proof.Gen.KernelIdeal.Frame
import proofs.«156160_j76605036692176_1_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.EdgeMlp.Kernel

open Cert.KernelIdeal Cert.KernelIdeal.Gen Idealize.ShloMosaic Idealize.ShloMosaic.TcCoe Idealize.SL.Sem
open Idealize.ShloMosaic.StableHlo Idealize.ShloMosaic.ValueIdx Cert.EdgeMlp

variable (m : (ℓ : Loc nD τ sig) → Buf (Elt Ideal) ℓ)

/-- The rows of the user table picked by the source indices. -/
abbrev srcRows (x0 : (⟨S100000x128, .f32⟩ : BufTy).Contents (Elt Ideal)) (x4 : (⟨S1000000, .i32⟩ : BufTy).Contents (Elt Ideal)) :
    (⟨S1000000x128, .f32⟩ : BufTy).Contents (Elt Ideal) :=
  Host.gather gather_S100000x128_S1000000x1_S1000000x128_1_0_n_n_0_1_1128 x0
    (broadcastInDim S1000000x1 ![0] bcast_S1000000_S1000000x1_0
      (select (cmpi .slt x4 (broadcastInDim S1000000 ![] bcast_S_S1000000 (constantI S_ 32 0#32)))
        (addi x4 (broadcastInDim S1000000 ![] bcast_S_S1000000 (constantI S_ 32 100000#32))) x4))

/-- The rows of the item table picked by the destination indices. -/
abbrev dstRows (x1 : (⟨S50000x128, .f32⟩ : BufTy).Contents (Elt Ideal)) (x5 : (⟨S1000000, .i32⟩ : BufTy).Contents (Elt Ideal)) :
    (⟨S1000000x128, .f32⟩ : BufTy).Contents (Elt Ideal) :=
  Host.gather gather_S50000x128_S1000000x1_S1000000x128_1_0_n_n_0_1_1128 x1
    (broadcastInDim S1000000x1 ![0] bcast_S1000000_S1000000x1_0
      (select (cmpi .slt x5 (broadcastInDim S1000000 ![] bcast_S_S1000000 (constantI S_ 32 0#32)))
        (addi x5 (broadcastInDim S1000000 ![] bcast_S_S1000000 (constantI S_ 32 50000#32))) x5))

/-- The region's first array holds the picked source rows. -/
theorem found_src (c : Dev nD) :
    (V m c main_v6 : (⟨S1000000x128, .f32⟩ : BufTy).Contents (Elt Ideal))
      = srcRows (m ((c : Thread nD τ).loc main_arg0)) (m ((c : Thread nD τ).loc main_arg4)) := by
  dsimp only [V, hostOps0]; after_results

/-- The region's second array holds the picked destination rows. -/
theorem found_dst (c : Dev nD) :
    (V m c main_v13 : (⟨S1000000x128, .f32⟩ : BufTy).Contents (Elt Ideal))
      = dstRows (m ((c : Thread nD τ).loc main_arg1)) (m ((c : Thread nD τ).loc main_arg5)) := by
  dsimp only [V, hostOps0]; after_results

/-- Entry (j, k) of the region's third array is W1 (k, j). -/
theorem found_w1_left (c : Dev nD) (j k : Fin 128) :
    (V m c main_v15 : S128x128.Idx → EReal) (ix2 j k)
      = (m ((c : Thread nD τ).loc main_arg2) : S128x256.Idx → EReal) (ix2 k (lo j)) := by
  have e : (V m c main_v15 : S128x128.Idx → EReal)
      = transpose S128x128 [1, 0] (extractStridedSlice S128x128 ![0, 0]
          (m ((c : Thread nD τ).loc main_arg2) : S128x256.Idx → EReal) slices_S128x256_S128x128_0_0) transposes_S128x128_S128x128_1_0 := by
    dsimp only [V, hostOps0]; after_results
  rw [e]
  refine (transpose_ix2_apply _ _ j k).trans ?_
  exact extractStridedSlice_apply _ _ _ _ (ix2 k (lo j)) fun a => match a with
    | ⟨0, _⟩ => by show k.val = 0 + k.val; omega
    | ⟨1, _⟩ => by show j.val = 0 + j.val; omega

/-- Entry (j, k) of the region's fourth array is W1 (k, 128 + j). -/
theorem found_w1_right (c : Dev nD) (j k : Fin 128) :
    (V m c main_v17 : S128x128.Idx → EReal) (ix2 j k)
      = (m ((c : Thread nD τ).loc main_arg2) : S128x256.Idx → EReal) (ix2 k (hi j)) := by
  have e : (V m c main_v17 : S128x128.Idx → EReal)
      = transpose S128x128 [1, 0] (extractStridedSlice S128x128 ![0, 128]
          (m ((c : Thread nD τ).loc main_arg2) : S128x256.Idx → EReal) slices_S128x256_S128x128_0_128) transposes_S128x128_S128x128_1_0 := by
    dsimp only [V, hostOps0]; after_results
  rw [e]
  refine (transpose_ix2_apply _ _ j k).trans ?_
  exact extractStridedSlice_apply _ _ _ _ (ix2 k (hi j)) fun a => match a with
    | ⟨0, _⟩ => by show k.val = 0 + k.val; omega
    | ⟨1, _⟩ => by show 128 + j.val = 128 + j.val; rfl

/-- Entry (k, q) of the region's fifth array is W2 (q, k). -/
theorem found_w2 (c : Dev nD) (k : Fin 128) (q : Fin 5) :
    (V m c main_v18 : S128x5.Idx → EReal) (ix2 k q)
      = (m ((c : Thread nD τ).loc main_arg3) : S5x128.Idx → EReal) (ix2 q k) := by
  have e : (V m c main_v18 : S128x5.Idx → EReal)
      = transpose S128x5 [1, 0] (m ((c : Thread nD τ).loc main_arg3) : S5x128.Idx → EReal) transposes_S5x128_S128x5_1_0 := by
    dsimp only [V, hostOps0]; after_results
  rw [e]
  exact transpose_ix2_apply _ _ k q

end Cert.EdgeMlp.Kernel

end
-- ==== Proof.KernelValue.lean ====
/-
  The kernel's result array, as one function of what the region finds in its input arrays.

  The grid has 125 points. Point t takes rows 8000 t .. 8000 t + 7999 of the picked source rows and of the picked
  destination rows, the three weight blocks whole at every point, and writes rows 8000 t .. 8000 t + 7999 of the result.
  What it writes at row p and column q is the stored block's entry (p, q) (the payload read at an entry), which is the score
  of edge 8000 t + p for output unit q. The 125 row blocks tile the result, so the whole array ends holding the score
  function.
-/
import proofs.«156160_j76605036692176_1_alg».proof.Proof.Gen.KernelIdeal.Value
import proofs.«156160_j76605036692176_1_alg».proof.Proof.Payload
import proofs.«156160_j76605036692176_1_alg».proof.Proof.HostPrefix
import proofs.«156160_j76605036692176_1_alg».proof.Proof.Spec
import Idealize.ShloMosaic.Lib.Pipeline.Value
import Idealize.ShloMosaic.Lib.ValueIdx

set_option maxRecDepth 16384

noncomputable section

namespace Cert.EdgeMlp.Kernel

open Cert.KernelIdeal Cert.KernelIdeal.Gen Idealize.ShloMosaic Idealize.ShloMosaic.TcCoe Idealize.SL.Sem
open Idealize.ShloMosaic.Pipeline (Dat)
open Idealize.ShloMosaic.ValueIdx Cert.EdgeMlp

variable (m : (ℓ : Loc nD τ sig) → Buf (Elt Ideal) ℓ) (ρ : Dev nD → PrngReg)

theorem zero_offsets : (![0, 0] : Fin 2 → Nat) = fun _ => 0 := funext fun a => by fin_cases a <;> rfl

/-- Which block of each array a grid point takes: the two row windows and the result window move with the point down the
    rows, the weight windows stay on their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The edge that row p of point t's blocks belongs to. -/
def edge (t : Fin cfg0.N) (p : Fin 8000) : Fin 1000000 :=
  ⟨8000 * t.val + p.val, by have := t.isLt; have h : cfg0.N = 125 := N_0; have := p.isLt; omega⟩

/-- Point t's five input blocks, each at its literal shape. -/
abbrev srcBlk (c : Dev nD) (t : Fin cfg0.N) : Vec Ideal S8000x128 .f32 := iblk m c 0 t
abbrev dstBlk (c : Dev nD) (t : Fin cfg0.N) : Vec Ideal S8000x128 .f32 := iblk m c 1 t
abbrev w1LeftBlk (c : Dev nD) (t : Fin cfg0.N) : Vec Ideal S128x128 .f32 := iblk m c 2 t
abbrev w1RightBlk (c : Dev nD) (t : Fin cfg0.N) : Vec Ideal S128x128 .f32 := iblk m c 3 t
abbrev w2Blk (c : Dev nD) (t : Fin cfg0.N) : Vec Ideal S128x5 .f32 := iblk m c 4 t

/-- Row p of point t's source block is the picked source row of edge 8000 t + p. -/
theorem src_block (c : Dev nD) (t : Fin cfg0.N) (p : Fin 8000) (j : Fin 128) :
    srcBlk m c t (ix2 p j) = (V m c main_v6 : S1000000x128.Idx → EReal) (ix2 (edge t p) j) := by
  obtain ⟨h0, h1, -⟩ := block_indices t
  unfold srcBlk iblk
  rw [View.read_apply]
  show V m c main_v6 _ = V m c main_v6 _
  congr 1
  funext a
  apply Fin.ext
  match a with
  | ⟨0, _⟩ => show win0_0.index t (0 : Fin 2) * 8000 + 1 * p.val = 8000 * t.val + p.val; rw [h0]; omega
  | ⟨1, _⟩ => show win0_0.index t (1 : Fin 2) * 128 + 1 * j.val = j.val; rw [h1]; omega

/-- Row p of point t's destination block is the picked destination row of edge 8000 t + p. -/
theorem dst_block (c : Dev nD) (t : Fin cfg0.N) (p : Fin 8000) (j : Fin 128) :
    dstBlk m c t (ix2 p j) = (V m c main_v13 : S1000000x128.Idx → EReal) (ix2 (edge t p) j) := by
  obtain ⟨-, -, h0, h1, -⟩ := block_indices t
  unfold dstBlk iblk
  rw [View.read_apply]
  show V m c main_v13 _ = V m c main_v13 _
  congr 1
  funext a
  apply Fin.ext
  match a with
  | ⟨0, _⟩ => show win0_1.index t (0 : Fin 2) * 8000 + 1 * p.val = 8000 * t.val + p.val; rw [h0]; omega
  | ⟨1, _⟩ => show win0_1.index t (1 : Fin 2) * 128 + 1 * j.val = j.val; rw [h1]; omega

/-- Every point's first weight block is the whole transposed left half of W1. -/
theorem w1_left_block (c : Dev nD) (t : Fin cfg0.N) (j k : Fin 128) :
    w1LeftBlk m c t (ix2 j k) = (V m c main_v15 : S128x128.Idx → EReal) (ix2 j k) := by
  obtain ⟨-, -, -, -, h0, h1, -⟩ := block_indices t
  unfold w1LeftBlk iblk
  rw [View.read_apply]
  show V m c main_v15 _ = V m c main_v15 _
  congr 1
  funext a
  apply Fin.ext
  match a with
  | ⟨0, _⟩ => show win0_2.index t (0 : Fin 2) * 128 + 1 * j.val = j.val; rw [h0]; omega
  | ⟨1, _⟩ => show win0_2.index t (1 : Fin 2) * 128 + 1 * k.val = k.val; rw [h1]; omega

/-- Every point's second weight block is the whole transposed right half of W1. -/
theorem w1_right_block (c : Dev nD) (t : Fin cfg0.N) (j k : Fin 128) :
    w1RightBlk m c t (ix2 j k) = (V m c main_v17 : S128x128.Idx → EReal) (ix2 j k) := by
  obtain ⟨-, -, -, -, -, -, h0, h1, -⟩ := block_indices t
  unfold w1RightBlk iblk
  rw [View.read_apply]
  show V m c main_v17 _ = V m c main_v17 _
  congr 1
  funext a
  apply Fin.ext
  match a with
  | ⟨0, _⟩ => show win0_3.index t (0 : Fin 2) * 128 + 1 * j.val = j.val; rw [h0]; omega
  | ⟨1, _⟩ => show win0_3.index t (1 : Fin 2) * 128 + 1 * k.val = k.val; rw [h1]; omega

/-- Every point's third weight block is the whole transposed W2. -/
theorem w2_block (c : Dev nD) (t : Fin cfg0.N) (k : Fin 128) (q : Fin 5) :
    w2Blk m c t (ix2 k q) = (V m c main_v18 : S128x5.Idx → EReal) (ix2 k q) := by
  obtain ⟨-, -, -, -, -, -, -, -, h0, h1, -⟩ := block_indices t
  unfold w2Blk iblk
  rw [View.read_apply]
  show V m c main_v18 _ = V m c main_v18 _
  congr 1
  funext a
  apply Fin.ext
  match a with
  | ⟨0, _⟩ => show win0_4.index t (0 : Fin 2) * 128 + 1 * k.val = k.val; rw [h0]; omega
  | ⟨1, _⟩ => show win0_4.index t (1 : Fin 2) * 5 + 1 * q.val = q.val; rw [h1]; omega

/-- The score function of what the region finds: the picked rows, and the weights as launched. -/
abbrev found_score (c : Dev nD) : S1000000x5.Idx → EReal :=
  score (V m c main_v6 : S1000000x128.Idx → EReal) (V m c main_v13 : S1000000x128.Idx → EReal)
    (m ((c : Thread nD τ).loc main_arg2) : S128x256.Idx → EReal) (m ((c : Thread nD τ).loc main_arg3) : S5x128.Idx → EReal)

/-- The rectified sum of the two products at row p of point t's blocks and column k is hidden unit k of edge 8000 t + p. -/
theorem hidden_block (c : Dev nD) (t : Fin cfg0.N) (p : Fin 8000) (k : Fin 128) :
    max (∑ j : Fin 128, srcBlk m c t (ix2 p j) * w1LeftBlk m c t (ix2 j k)
        + ∑ j : Fin 128, dstBlk m c t (ix2 p j) * w1RightBlk m c t (ix2 j k)) 0
      = hidden (V m c main_v6 : S1000000x128.Idx → EReal) (V m c main_v13 : S1000000x128.Idx → EReal)
          (m ((c : Thread nD τ).loc main_arg2) : S128x256.Idx → EReal) (edge t p) k := by
  unfold hidden
  refine congrArg (fun s : EReal => max s 0) (congrArg₂ (fun a b : EReal => a + b)
    (Finset.sum_congr rfl fun j _ => ?_) (Finset.sum_congr rfl fun j _ => ?_))
  · rw [src_block, w1_left_block, found_w1_left]
  · rw [dst_block, w1_right_block, found_w1_right]

/-- Entry (p, q) of what point t stores is the score of edge 8000 t + p for output unit q. -/
theorem stored_is_score (c : Dev nD) (t : Fin cfg0.N) (p : Fin 8000) (q : Fin 5) :
    k0_pay1 (F := Ideal) (iblk m c 0 t) (iblk m c 1 t) (iblk m c 2 t) (iblk m c 3 t) (iblk m c 4 t) (ix2 p q)
      = found_score m c (ix2 (edge t p) q) := by
  refine (stored_apply (srcBlk m c t) (dstBlk m c t) (w1LeftBlk m c t) (w1RightBlk m c t) (w2Blk m c t) p q).trans ?_
  refine Finset.sum_congr rfl fun k _ => ?_
  rw [hidden_block, w2_block, found_w2]

/-- What point t writes back is block t of the score function. -/
theorem written_block (c : Dev nD) (t : Fin cfg0.N) :
    (dats m 0 c).flushed 5 t = ((cfg0.win 5).blk t).view.read (Elt Ideal) (found_score m c) := by
  rw [Value.flushed5]
  unfold out0_5
  rw [View.canon_unit_zero zero_offsets]
  simp only [View.ld_unit_zero (S := S8000x128) zero_offsets, View.ld_unit_zero (S := S128x128) zero_offsets,
    View.ld_unit_zero (S := S128x5) zero_offsets]
  funext y
  obtain ⟨p, q, rfl⟩ : ∃ (p : Fin 8000) (q : Fin 5), y = ix2 p q := ⟨y 0, y 1, eq_ix2 y⟩
  obtain ⟨-, -, -, -, -, -, -, -, -, -, h0, h1⟩ := block_indices t
  have hrow : ((cfg0.win 5).blk t).view.emb (ix2 p q) = ix2 (edge t p) q := by
    funext a
    apply Fin.ext
    match a with
    | ⟨0, _⟩ => show win0_5.index t (0 : Fin 2) * 8000 + 1 * p.val = 8000 * t.val + p.val; rw [h0]; omega
    | ⟨1, _⟩ => show win0_5.index t (1 : Fin 2) * 5 + 1 * q.val = q.val; rw [h1]; omega
  show k0_pay1 (F := Ideal) (iblk m c 0 t) (iblk m c 1 t) (iblk m c 2 t) (iblk m c 3 t) (iblk m c 4 t) (ix2 p q)
    = found_score m c (((cfg0.win 5).blk t).view.emb (ix2 p q))
  rw [hrow]
  exact stored_is_score m c t p q

/-- An index of the result is in point t's block exactly when its row is one of the point's 8000. -/
theorem mem_block (t : Fin cfg0.N) (i : S1000000x5.Idx) :
    i ∈ ((cfg0.win 5).blk t).view.set ↔ ∀ a : Fin 2, win0_5.index t a * S8000x5.size a ≤ (i a).val
      ∧ (i a).val < win0_5.index t a * S8000x5.size a + S8000x5.size a := by
  show i ∈ ((View.whole main_v19).slice (win0_5.rect t)).set ↔ _
  rw [View.set_slice_whole, Rect.mem_set_unit]
  exact Iff.rfl

/-- Every index of the result is in the block of the point its row falls in. -/
theorem blocks_cover (i : S1000000x5.Idx) :
    ∃ t : Fin cfg0.N, (cfg0.win 5).flush t = true ∧ i ∈ ((cfg0.win 5).blk t).view.set := by
  have hr : (i 0).val < 1000000 := (i 0).isLt
  have hq : (i 1).val < 5 := (i 1).isLt
  have hN : cfg0.N = 125 := N_0
  let t : Fin cfg0.N := ⟨(i 0).val / 8000, by omega⟩
  obtain ⟨-, -, -, -, -, -, -, -, -, -, h0, h1⟩ := block_indices t
  have ht : t.val = (i 0).val / 8000 := rfl
  refine ⟨t, flush0_5 t, ?_⟩
  rw [mem_block]
  intro a
  match a with
  | ⟨0, _⟩ => show win0_5.index t (0 : Fin 2) * 8000 ≤ (i 0).val ∧ (i 0).val < win0_5.index t (0 : Fin 2) * 8000 + 8000; rw [h0]; omega
  | ⟨1, _⟩ => show win0_5.index t (1 : Fin 2) * 5 ≤ (i 1).val ∧ (i 1).val < win0_5.index t (1 : Fin 2) * 5 + 5; rw [h1]; omega

/-- So the result array ends holding the score function of what the region found. -/
theorem result_array (c : Dev nD) : (dats m 0 c).arrAt 5 cfg0.N = found_score m c :=
  (dats m 0 c).arrAt_eq_of_cover 5 (found_score m c) (fun t _ => written_block m c t) blocks_cover

/-- The kernel's run: the result at the score function of the picked rows and the weights as launched, the arguments
    unchanged. -/
theorem run : θ_run defs (onTc (τ := τ) (main (F := Ideal))) ⟨m, fun _ => 0, ρ⟩ fun r => ∀ c : Dev nD,
      r.2.mem ((c : Thread nD τ).loc main_v19)
        = score (srcRows (m ((c : Thread nD τ).loc main_arg0)) (m ((c : Thread nD τ).loc main_arg4)))
            (dstRows (m ((c : Thread nD τ).loc main_arg1)) (m ((c : Thread nD τ).loc main_arg5)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨by
      rw [(h c).1, result_array m c]
      unfold found_score
      rw [found_src m c, found_dst m c], (h c).2⟩)
    (Value.run_blocks m ρ)

end Cert.EdgeMlp.Kernel

end
-- ==== Proof.RefValue.lean ====
/-
  The reference's result, stage by stage, is the score function of the picked rows and the two weight matrices.

  The reference joins each edge's source row and destination row into one row of 256 features, multiplies by the transposed
  W1, keeps the positive part, and multiplies by the transposed W2. Read at an entry: the joined row at a coordinate of its
  left half is the source row there and at a coordinate of its right half the destination row; the transposed weights read
  W1 (k, .) and W2 (c, .); the sum over the 256 joined coordinates splits at the seam into the two sums of 128 the score
  function is written with.
-/
import proofs.«156160_j76605036692176_1_alg».proof.Proof.Gen.ReferenceIdeal.Read
import proofs.«156160_j76605036692176_1_alg».proof.Proof.Spec
import Idealize.ShloMosaic.Lib.Pipeline.Value
import Idealize.ShloMosaic.Lib.ValueIdx
import Idealize.ShloMosaic.PureOps.Ideal.Laws

noncomputable section

namespace Cert.EdgeMlp.Reference

open Cert.ReferenceIdeal Cert.ReferenceIdeal.Gen Cert.ReferenceIdeal.Read Idealize.ShloMosaic Idealize.ShloMosaic.ValueIdx
open Cert.EdgeMlp

/-- The joined row at a coordinate of its left half is the source row there. -/
theorem joined_lo (hu hv : S1000000x128.Idx → EReal) (e : Fin 1000000) (j : Fin 128) :
    concatenate S1000000x256 1 [⟨S1000000x128, hu⟩, ⟨S1000000x128, hv⟩] concatenates_S1000000x128_S1000000x128_S1000000x256_d1
        (ix2 e (lo j)) = hu (ix2 e j) :=
  concatenate_pair_apply_left (t := S1000000x256) 1 hu hv concatenates_S1000000x128_S1000000x128_S1000000x256_d1 (ix2 e (lo j)) rfl
    (ix2 e j) fun b => match b with
    | ⟨0, _⟩ => rfl
    | ⟨1, _⟩ => rfl

/-- The joined row at a coordinate of its right half is the destination row there. -/
theorem joined_hi (hu hv : S1000000x128.Idx → EReal) (e : Fin 1000000) (j : Fin 128) :
    concatenate S1000000x256 1 [⟨S1000000x128, hu⟩, ⟨S1000000x128, hv⟩] concatenates_S1000000x128_S1000000x128_S1000000x256_d1
        (ix2 e (hi j)) = hv (ix2 e j) :=
  concatenate_pair_apply_right (t := S1000000x256) 1 hu hv concatenates_S1000000x128_S1000000x128_S1000000x256_d1 (ix2 e (hi j)) rfl rfl
    (ix2 e j)
    (fun b hb => match b, hb with
      | ⟨0, _⟩, _ => rfl
      | ⟨1, _⟩, hb => absurd rfl hb)
    (by show j.val + 128 = 128 + j.val; omega)

variable (x0 : (⟨S100000x128, .f32⟩ : BufTy).Contents (Elt Ideal)) (x1 : (⟨S50000x128, .f32⟩ : BufTy).Contents (Elt Ideal))
  (x2 : (⟨S128x256, .f32⟩ : BufTy).Contents (Elt Ideal)) (x3 : (⟨S5x128, .f32⟩ : BufTy).Contents (Elt Ideal))
  (x4 x5 : (⟨S1000000, .i32⟩ : BufTy).Contents (Elt Ideal))

/-- One term of the reference's first product: the joined row's coordinate n times W1 (k, n). -/
theorem first_product_term (e : Fin 1000000) (k : Fin 128) (n : Fin 256) :
    val_main_v14 (F := Ideal) x0 x1 x4 x5 (lidx_main_v16 (ix2 e k) n) * val_main_v15 (F := Ideal) x2 (ridx_main_v16 (ix2 e k) n)
      = concatenate S1000000x256 1 [⟨S1000000x128, val_main_v6 (F := Ideal) x0 x4⟩, ⟨S1000000x128, val_main_v13 (F := Ideal) x1 x5⟩]
          concatenates_S1000000x128_S1000000x128_S1000000x256_d1 (ix2 e n) * x2 (ix2 k n) := by
  rw [val_main_v15_apply]
  have a : lidx_main_v16 (ix2 e k) n = ix2 e n := funext fun a => Fin.ext (by
    match a with
    | ⟨0, _⟩ => rfl
    | ⟨1, _⟩ => rfl)
  have b : idx_main_v15 (ridx_main_v16 (ix2 e k) n) = ix2 k n := funext fun a => Fin.ext (by
    match a with
    | ⟨0, _⟩ => rfl
    | ⟨1, _⟩ => rfl)
  rw [a, b]
  rfl

/-- The reference's hidden layer at (e, k) is the score function's hidden unit. -/
theorem hidden_eq (e : Fin 1000000) (k : Fin 128) :
    val_main_v17 (F := Ideal) x0 x1 x2 x4 x5 (ix2 e k)
      = hidden (val_main_v6 (F := Ideal) x0 x4) (val_main_v13 (F := Ideal) x1 x5) x2 e k := by
  rw [val_main_v17_apply, val_main_v16_apply, val_main_call0_v0_apply, val_main_call0_cst_apply,
    Ideal.maximumf_def, Ideal.ofBits_def, Ideal.ofBits_zero_f32, sum_halves]
  unfold hidden
  refine congrArg (fun s : EReal => max s 0) (congrArg₂ (fun a b : EReal => a + b)
    (Finset.sum_congr rfl fun j _ => ?_) (Finset.sum_congr rfl fun j _ => ?_))
  · rw [first_product_term, joined_lo]
  · rw [first_product_term, joined_hi]

/-- The reference's result is the score function of the picked rows and the weights. -/
theorem result_eq :
    val_main_v19 (F := Ideal) x0 x1 x2 x3 x4 x5
      = score (val_main_v6 (F := Ideal) x0 x4) (val_main_v13 (F := Ideal) x1 x5) x2 x3 := by
  funext i
  obtain ⟨e, c, rfl⟩ : ∃ (e : Fin 1000000) (c : Fin 5), i = ix2 e c := ⟨i 0, i 1, eq_ix2 i⟩
  rw [val_main_v19_apply]
  unfold score
  refine Finset.sum_congr rfl fun k _ => ?_
  rw [val_main_v18_apply]
  have a : lidx_main_v19 (ix2 e c) k = ix2 e k := funext fun a => Fin.ext (by
    match a with
    | ⟨0, _⟩ => rfl
    | ⟨1, _⟩ => rfl)
  have b : idx_main_v18 (ridx_main_v19 (ix2 e c) k) = ix2 c k := funext fun a => Fin.ext (by
    match a with
    | ⟨0, _⟩ => rfl
    | ⟨1, _⟩ => rfl)
  rw [a, b, hidden_eq]

end Cert.EdgeMlp.Reference

end
-- ==== Proof.lean ====
/-
  Edge scores of a bipartite graph by a two-layer perceptron: the tiled kernel against the plain reference, over the
  extended reals.

  Both programs pick, for each of the 1,000,000 edges, the source row of the user table and the destination row of the item
  table by the same gather on the same indices. The reference joins the two rows into one of 256 features, multiplies by
  the transposed W1 (128 by 256), keeps the positive part, and multiplies by the transposed W2 (5 by 128). The kernel never
  joins the rows: over a grid of 125 blocks of 8000 edges it multiplies the source rows by the transposed left half of W1
  and the destination rows by the transposed right half, adds the two products, keeps the positive part, and multiplies by
  the transposed W2. The two agree because an inner product over 256 coordinates is the sum of the inner products over its
  two halves of 128, a law of any commutative additive monoid, so of the extended reals with their infinities: the proof
  never uses that the inputs are finite. Narrowing the operands of the matrix unit is the identity over the extended reals,
  and both positive parts compare with the same zero.

  Spec.lean states the score function and the law of the halves; Payload.lean reads what the kernel body stores at an
  entry; HostPrefix.lean reads what the region finds in its arrays; KernelValue.lean carries the stored blocks to the whole
  result array; RefValue.lean reads the reference's stages; here the claims are put together.
-/
import proofs.«156160_j76605036692176_1_alg».proof.Defs
import proofs.«156160_j76605036692176_1_alg».proof.Proof.Gen.Kernel
import proofs.«156160_j76605036692176_1_alg».proof.Proof.Gen.Kernel.Skeleton
import proofs.«156160_j76605036692176_1_alg».proof.Proof.Gen.Kernel.Launch
import proofs.«156160_j76605036692176_1_alg».proof.Proof.Gen.Kernel.Points
import proofs.«156160_j76605036692176_1_alg».proof.Proof.Gen.Kernel.Frame
import proofs.«156160_j76605036692176_1_alg».proof.Proof.Gen.KernelIdeal
import proofs.«156160_j76605036692176_1_alg».proof.Proof.Gen.KernelIdeal.Skeleton
import proofs.«156160_j76605036692176_1_alg».proof.Proof.Gen.KernelIdeal.Launch
import proofs.«156160_j76605036692176_1_alg».proof.Proof.Gen.KernelIdeal.Points
import proofs.«156160_j76605036692176_1_alg».proof.Proof.Gen.KernelIdeal.Frame
import proofs.«156160_j76605036692176_1_alg».proof.Proof.Gen.ReferenceIdeal
import proofs.«156160_j76605036692176_1_alg».proof.Proof.Gen.Pre_finite_inputs
import proofs.«156160_j76605036692176_1_alg».proof.Proof.Gen.KernelIdeal.Value
import proofs.«156160_j76605036692176_1_alg».proof.Proof.Gen.ReferenceIdeal.Run
import proofs.«156160_j76605036692176_1_alg».proof.Proof.Gen.ReferenceIdeal.Read
import proofs.«156160_j76605036692176_1_alg».proof.Proof.KernelValue
import proofs.«156160_j76605036692176_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel over the extended reals. -/
theorem frame_kernel_ideal : Cert.frame_KernelIdeal := fun m ρ _ => Cert.KernelIdeal.Gen.frame m ρ

/-- The reference is host operations only: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the score function of the rows picked from the
    two tables and of the two weight matrices. -/
theorem algebraic : Cert.algebraic_KernelIdeal_ReferenceIdeal := by
  intro m ρ m' ρ' _ hagree
  refine ⟨_, Cert.EdgeMlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.EdgeMlp.Reference.result_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
